-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S512x128 : Shape := ⟨2, ![512, 128]⟩
abbrev S128x64 : Shape := ⟨2, ![128, 64]⟩
abbrev S800000 : Shape := ⟨1, ![800000]⟩
abbrev S1000 : Shape := ⟨1, ![1000]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128x64 : S_.BroadcastsInDim S128x64 (![] : Fin 0 → Fin S128x64.rank)
  reducesTo_S128x64_S_d0_1 : S128x64.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_v13 : IVec S_ 1) (main_v16 : IVec S800000 1) : IVec S_ 1 :=
  let main_c_5 : IVec S_ 1 := constantI S_ 1 1#1
  let main_v17 : IVec S_ 1 := (fun x v => Host.reduce IntOp.andi x v reducesTo_S800000_S_d0 h_S_) main_v16 main_c_5
  let main_v18 : IVec S_ 1 := andi main_v13 main_v17
  main_v18

def fn {F : FTy → Type} [FloatOps F] (main_arg0 : FVec F S50000x512 .f32) (main_arg1 : FVec F S512x128 .f32) (main_arg2 : FVec F S128x64 .f32) (main_arg3 : FVec F S800000 .f32) (main_arg4 : IVec S800000 32) (main_arg5 : IVec S800000 32) (main_arg6 : IVec S1000 32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S800000 .f32 := Host.absf main_arg3
  let main_cst_4 : FVec F S_ .f32 := constant S_ .f32 0x7F800000#32
  let main_v15 : FVec F S800000 .f32 := broadcastInDim S800000 ![] bcast_S_S800000 main_cst_4
  let main_v16 : IVec S800000 1 := cmpf .olt main_v14 main_v15
  fn_part1 (F := F) main_v13 main_v16
-- ==== Kernel.lean ====
abbrev S50000x512 : Shape := ⟨2, ![50000, 512]⟩
abbrev S512x128 : Shape := ⟨2, ![512, 128]⟩
abbrev S128x64 : Shape := ⟨2, ![128, 64]⟩
abbrev S800000 : Shape := ⟨1, ![800000]⟩
abbrev S1000 : Shape := ⟨1, ![1000]⟩
abbrev S50000x128 : Shape := ⟨2, ![50000, 128]⟩
abbrev S2000x512 : Shape := ⟨2, ![2000, 512]⟩
abbrev S2000x128 : Shape := ⟨2, ![2000, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S10000x128 : Shape := ⟨2, ![10000, 128]⟩
abbrev S10000x64 : Shape := ⟨2, ![10000, 64]⟩
abbrev S800000x64 : Shape := ⟨2, ![800000, 64]⟩
abbrev S1000x1 : Shape := ⟨2, ![1000, 1]⟩
abbrev S1000x64 : Shape := ⟨2, ![1000, 64]⟩

abbrev nBuf : Space → Nat
  | .hbm => 53
  | .vmem => 10
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128x64, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S1000, .i32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S_, .i32⟩
  | .hbm, ⟨45, _⟩ => ⟨S1000, .i32⟩
  | .hbm, ⟨46, _⟩ => ⟨S1000, .i1⟩
  | .hbm, ⟨47, _⟩ => ⟨S_, .i32⟩
  | .hbm, ⟨48, _⟩ => ⟨S1000, .i32⟩
  | .hbm, ⟨49, _⟩ => ⟨S1000, .i32⟩
  | .hbm, ⟨50, _⟩ => ⟨S1000, .i32⟩
  | .hbm, ⟨51, _⟩ => ⟨S1000x1, .i32⟩
  | .hbm, ⟨52, _⟩ => ⟨S1000x64, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x128, .f32⟩
  | .local _ .vmem, ⟨4, _⟩ => ⟨S2000x128, .f32⟩
  | .local _ .vmem, ⟨5, _⟩ => ⟨S10000x128, .f32⟩
  | .local _ .vmem, ⟨6, _⟩ => ⟨S10000x128, .f32⟩
  | .local _ .vmem, ⟨7, _⟩ => ⟨S128x64, .f32⟩
  | .local _ .vmem, ⟨8, _⟩ => ⟨S10000x64, .f32⟩
  | .local _ .vmem, ⟨9, _⟩ => ⟨S10000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  inb_S2000x128_S2000x128_0_0 : ∀ a, (![0, 0] : Fin 2 → Nat) a + S2000x128.size a ≤ S2000x128.size a
  h_S2000x128 : 0 < S2000x128.numel
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S1000 : S_.BroadcastsInDim S1000 (![] : Fin 0 → Fin S1000.rank)
  bcast_S1000_S1000x1_0 : S1000.BroadcastsInDim S1000x1 (![0] : Fin 1 → Fin S1000x1.rank)
  dot_S2000x512_S512x128_S2000x128_1_0_0_1_n_n_wf : DotDims.WF S2000x512 S512x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S10000x128_S128x64_S10000x64_1_0_0_1_n_n_wf : DotDims.WF S10000x128 S128x64 S10000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S1000x1_S1000x64_1_0_n_n_0_1_164_wf : GatherDims.WF S50000x64 S1000x1 S1000x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x64.size a ≤ S128x64.size a
  hwx1_1 : ∀ i : grid1.Coords, EltTy.bits .f32 = 32 ∨ (Rect.block (s := S128x64) S128x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S50000x64.size a
  hwx1_2 : ∀ i : grid1.Coords, EltTy.bits .f32 = 32 ∨ (Rect.block (s := S50000x64) S10000x64.size (cc1_transform_2 i) (hinb1_2 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S1000x1_S1000x64_1_0_n_n_0_1_164 : GatherDims S50000x64 S1000x1 S1000x64 where
  offsetDims := [1]
  collapsedSliceDims := [0]
  operandBatchingDims := []
  startIndicesBatchingDims := []
  startIndexMap := [0]
  indexVectorDim := 1
  sliceSizes := ![1, 64]
  wf := gather_S50000x64_S1000x1_S1000x64_1_0_n_n_0_1_164_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v14) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S128x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x512 : Shape := ⟨2, ![50000, 512]⟩
abbrev S512x128 : Shape := ⟨2, ![512, 128]⟩
abbrev S128x64 : Shape := ⟨2, ![128, 64]⟩
abbrev S800000 : Shape := ⟨1, ![800000]⟩
abbrev S1000 : Shape := ⟨1, ![1000]⟩
abbrev S50000x128 : Shape := ⟨2, ![50000, 128]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S800000x64 : Shape := ⟨2, ![800000, 64]⟩
abbrev S1000x1 : Shape := ⟨2, ![1000, 1]⟩
abbrev S1000x64 : Shape := ⟨2, ![1000, 64]⟩

abbrev nBuf : Space → Nat
  | .hbm => 53
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S512x128, .f32⟩
  | .hbm, ⟨2, _⟩ => ⟨S128x64, .f32⟩
  | .hbm, ⟨3, _⟩ => ⟨S800000, .f32⟩
  | .hbm, ⟨4, _⟩ => ⟨S800000, .i32⟩
  | .hbm, ⟨5, _⟩ => ⟨S800000, .i32⟩
  | .hbm, ⟨6, _⟩ => ⟨S1000, .i32⟩
  | .hbm, ⟨7, _⟩ => ⟨S50000x128, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x128, .f32⟩
  | .hbm, ⟨17, _⟩ => ⟨S800000x1, .f32⟩
  | .hbm, ⟨18, _⟩ => ⟨S800000x128, .f32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S_, .f32⟩
  | .hbm, ⟨25, _⟩ => ⟨S50000x128, .f32⟩
  | .hbm, ⟨26, _⟩ => ⟨S50000x128, .f32⟩
  | .hbm, ⟨27, _⟩ => ⟨S50000x64, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x64, .f32⟩
  | .hbm, ⟨37, _⟩ => ⟨S800000x1, .f32⟩
  | .hbm, ⟨38, _⟩ => ⟨S800000x64, .f32⟩
  | .hbm, ⟨39, _⟩ => ⟨S800000x64, .f32⟩
  | .hbm, ⟨40, _⟩ => ⟨S_, .f32⟩
  | .hbm, ⟨41, _⟩ => ⟨S50000x64, .f32⟩
  | .hbm, ⟨42, _⟩ => ⟨S800000x1, .i32⟩
  | .hbm, ⟨43, _⟩ => ⟨S50000x64, .f32⟩
  | .hbm, ⟨44, _⟩ => ⟨S_, .i32⟩
  | .hbm, ⟨45, _⟩ => ⟨S1000, .i32⟩
  | .hbm, ⟨46, _⟩ => ⟨S1000, .i1⟩
  | .hbm, ⟨47, _⟩ => ⟨S_, .i32⟩
  | .hbm, ⟨48, _⟩ => ⟨S1000, .i32⟩
  | .hbm, ⟨49, _⟩ => ⟨S1000, .i32⟩
  | .hbm, ⟨50, _⟩ => ⟨S1000, .i32⟩
  | .hbm, ⟨51, _⟩ => ⟨S1000x1, .i32⟩
  | .hbm, ⟨52, _⟩ => ⟨S1000x64, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_4 : Ref sig .tc := ⟨.hbm, 44, rfl⟩
abbrev main_v29 : Ref sig .tc := ⟨.hbm, 45, rfl⟩
abbrev main_v30 : Ref sig .tc := ⟨.hbm, 46, rfl⟩
abbrev main_c_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S1000 : S_.BroadcastsInDim S1000 (![] : Fin 0 → Fin S1000.rank)
  bcast_S1000_S1000x1_0 : S1000.BroadcastsInDim S1000x1 (![0] : Fin 1 → Fin S1000x1.rank)
  dot_S50000x512_S512x128_S50000x128_1_0_0_1_n_n_wf : DotDims.WF S50000x512 S512x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  gather_S50000x64_S1000x1_S1000x64_1_0_n_n_0_1_164_wf : GatherDims.WF S50000x64 S1000x1 S1000x64 [1] [0] [] [0] [] 1 ![1, 64]

variable [Facts₀]

def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def gather_S50000x64_S1000x1_S1000x64_1_0_n_n_0_1_164 : GatherDims S50000x64 S1000x1 S1000x64 where
  offsetDims := [1]
  collapsedSliceDims := [0]
  operandBatchingDims := []
  startIndicesBatchingDims := []
  startIndexMap := [0]
  indexVectorDim := 1
  sliceSizes := ![1, 64]
  wf := gather_S50000x64_S1000x1_S1000x64_1_0_n_n_0_1_164_wf

class Facts : Prop extends Facts₀ where

variable [Facts]
-- ==== Proof.Graph.lean ====
/-
  The specification: a two-layer graph convolution read as ONE function of the seven argument arrays.

  A layer's sparse product is carried here as a named, unopened function of the node features `h`, the edge
  weights and the edge endpoints: every edge `e` takes row `src e` of `h` (a negative node number counting from
  the end, one wrap by the node count 50000), scales it by `w e`, and the scaled rows are added into row `dst e` of a
  zero array. Both programs apply these very operations to their dense products, so nothing below ever looks inside
  a gather or a scatter-add: the two sides are compared by the dense products that go in.

  The forward pass is then: rows `idx` of  A · ( relu (A · (x W0)) · W1 ),  with `A ·` the edge aggregation and the
  two dense products the host's `dot_general` of the WHOLE arrays (the reference's own records).
-/
import proofs.«122880_j51694226375203_1_alg».proof.Proof.Gen.KernelIdeal
import proofs.«122880_j51694226375203_1_alg».proof.Proof.Gen.ReferenceIdeal

noncomputable section

namespace Cert.Graph

open Idealize.ShloMosaic Cert.KernelIdeal Cert.KernelIdeal.Facts₀

variable {F : FTy → Type} [FloatOps F]

/-- An edge endpoint as an index into the 50000 nodes: a negative number counts from the end. -/
def wrapEdge (s : (⟨S800000, .i32⟩ : BufTy).Contents (Elt F)) : (⟨S800000, .i32⟩ : BufTy).Contents (Elt F) :=
  select (cmpi .slt s (broadcastInDim S800000 ![] bcast_S_S800000 (constantI S_ 32 0#32)))
    (addi s (broadcastInDim S800000 ![] bcast_S_S800000 (constantI S_ 32 50000#32))) s

/-- A requested output row as an index into the 50000 nodes: a negative number counts from the end. -/
def wrapRow (s : (⟨S1000, .i32⟩ : BufTy).Contents (Elt F)) : (⟨S1000, .i32⟩ : BufTy).Contents (Elt F) :=
  select (cmpi .slt s (broadcastInDim S1000 ![] bcast_S_S1000 (constantI S_ 32 0#32)))
    (addi s (broadcastInDim S1000 ![] bcast_S_S1000 (constantI S_ 32 50000#32))) s

/-- The sparse product on 128 features: row `dst e` of the result collects `w e` times row `src e` of `h`, over all edges. -/
def aggregate128 (h : (⟨S50000x128, .f32⟩ : BufTy).Contents (Elt F)) (w : (⟨S800000, .f32⟩ : BufTy).Contents (Elt F))
    (src dst : (⟨S800000, .i32⟩ : BufTy).Contents (Elt F)) : (⟨S50000x128, .f32⟩ : BufTy).Contents (Elt F) :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst)
    (mulf
      (Host.gather gather_S50000x128_S800000x1_S800000x128_1_0_n_n_0_1_1128 h
        (broadcastInDim S800000x1 ![0] bcast_S800000_S800000x1_0 (wrapEdge src)))
      (broadcastInDim S800000x128 ![0, 1] bcast_S800000x1_S800000x128_0_1
        (broadcastInDim S800000x1 ![0] bcast_S800000_S800000x1_0 w)))

/-- The same sparse product on 64 features. -/
def aggregate64 (h : (⟨S50000x64, .f32⟩ : BufTy).Contents (Elt F)) (w : (⟨S800000, .f32⟩ : BufTy).Contents (Elt F))
    (src dst : (⟨S800000, .i32⟩ : BufTy).Contents (Elt F)) : (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 dst)
    (mulf
      (Host.gather gather_S50000x64_S800000x1_S800000x64_1_0_n_n_0_1_164 h
        (broadcastInDim S800000x1 ![0] bcast_S800000_S800000x1_0 (wrapEdge src)))
      (broadcastInDim S800000x64 ![0, 1] bcast_S800000x1_S800000x64_0_1
        (broadcastInDim S800000x1 ![0] bcast_S800000_S800000x1_0 w)))

/-- The activation between the layers: the larger of an entry and zero. -/
def relu128 (h : (⟨S50000x128, .f32⟩ : BufTy).Contents (Elt F)) : (⟨S50000x128, .f32⟩ : BufTy).Contents (Elt F) :=
  maximumf h (broadcastInDim S50000x128 ![] bcast_S_S50000x128 (constant S_ .f32 0x00000000#32))

/-- The rows of `h` the caller asked for. -/
def pickRows (h : (⟨S50000x64, .f32⟩ : BufTy).Contents (Elt F)) (idx : (⟨S1000, .i32⟩ : BufTy).Contents (Elt F)) :
    (⟨S1000x64, .f32⟩ : BufTy).Contents (Elt F) :=
  Host.gather gather_S50000x64_S1000x1_S1000x64_1_0_n_n_0_1_164 h
    (broadcastInDim S1000x1 ![0] bcast_S1000_S1000x1_0 (wrapRow idx))

/-- The hidden features: the first layer's dense product `h0`, aggregated over the edges, then the activation. -/
def hidden (h0 : (⟨S50000x128, .f32⟩ : BufTy).Contents (Elt F)) (w : (⟨S800000, .f32⟩ : BufTy).Contents (Elt F))
    (src dst : (⟨S800000, .i32⟩ : BufTy).Contents (Elt F)) : (⟨S50000x128, .f32⟩ : BufTy).Contents (Elt F) :=
  relu128 (aggregate128 h0 w src dst)

/-- The output: the second layer's dense product `h1`, aggregated over the edges, at the requested rows. -/
def readout (h1 : (⟨S50000x64, .f32⟩ : BufTy).Contents (Elt F)) (w : (⟨S800000, .f32⟩ : BufTy).Contents (Elt F))
    (src dst : (⟨S800000, .i32⟩ : BufTy).Contents (Elt F)) (idx : (⟨S1000, .i32⟩ : BufTy).Contents (Elt F)) :
    (⟨S1000x64, .f32⟩ : BufTy).Contents (Elt F) :=
  pickRows (aggregate64 h1 w src dst) idx

/-- The first layer's dense product of the whole arrays. -/
def dense0 (x : (⟨S50000x512, .f32⟩ : BufTy).Contents (Elt F)) (w0 : (⟨S512x128, .f32⟩ : BufTy).Contents (Elt F)) :
    (⟨S50000x128, .f32⟩ : BufTy).Contents (Elt F) :=
  Host.dotGeneral Cert.ReferenceIdeal.dot_S50000x512_S512x128_S50000x128_1_0_0_1_n_n none x w0

/-- The second layer's dense product of the whole arrays. -/
def dense1 (h : (⟨S50000x128, .f32⟩ : BufTy).Contents (Elt F)) (w1 : (⟨S128x64, .f32⟩ : BufTy).Contents (Elt F)) :
    (⟨S50000x64, .f32⟩ : BufTy).Contents (Elt F) :=
  Host.dotGeneral Cert.ReferenceIdeal.dot_S50000x128_S128x64_S50000x64_1_0_0_1_n_n none h w1

/-- THE FORWARD PASS as one function of the argument arrays. -/
def forward (x : (⟨S50000x512, .f32⟩ : BufTy).Contents (Elt F)) (w0 : (⟨S512x128, .f32⟩ : BufTy).Contents (Elt F))
    (w1 : (⟨S128x64, .f32⟩ : BufTy).Contents (Elt F)) (w : (⟨S800000, .f32⟩ : BufTy).Contents (Elt F))
    (src dst : (⟨S800000, .i32⟩ : BufTy).Contents (Elt F)) (idx : (⟨S1000, .i32⟩ : BufTy).Contents (Elt F)) :
    (⟨S1000x64, .f32⟩ : BufTy).Contents (Elt F) :=
  readout (dense1 (hidden (dense0 x w0) w src dst) w1) w src dst idx

end Cert.Graph

end
-- ==== Proof.HostStretches.lean ====
/-
  The host stretches of the kernel's program, read back as values.

  Between the two regions the program aggregates the first dense product over the edges and applies the activation;
  after the second region it aggregates the second dense product and picks the requested rows. Each stretch is read
  as the specification's named function of the array the preceding region left and of the edge arrays, which no region
  and no host operation writes: they are as launched at every boundary.
-/
import proofs.«122880_j51694226375203_1_alg».proof.Proof.Gen.KernelIdeal.Frame
import proofs.«122880_j51694226375203_1_alg».proof.Proof.Graph
import Idealize.ShloMosaic.Lib.StableHlo.Run

set_option maxRecDepth 16384

noncomputable section

namespace Cert.KernelIdeal.HostStretches

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ## The arrays nothing writes: as launched at every boundary -/

/-! After region 0 (its three arrays are the input features, the first weight matrix and its own output). -/
theorem entry1_arg2 (c : Dev nD) : W1 m ρ c (Proc.devRef .tc main_arg2) = m ((c : Thread nD τ).loc main_arg2) :=
  W1_of_ne m ρ c main_arg2 (by decide)
theorem entry1_arg3 (c : Dev nD) : W1 m ρ c (Proc.devRef .tc main_arg3) = m ((c : Thread nD τ).loc main_arg3) :=
  W1_of_ne m ρ c main_arg3 (by decide)
theorem entry1_arg4 (c : Dev nD) : W1 m ρ c (Proc.devRef .tc main_arg4) = m ((c : Thread nD τ).loc main_arg4) :=
  W1_of_ne m ρ c main_arg4 (by decide)
theorem entry1_arg5 (c : Dev nD) : W1 m ρ c (Proc.devRef .tc main_arg5) = m ((c : Thread nD τ).loc main_arg5) :=
  W1_of_ne m ρ c main_arg5 (by decide)
theorem entry1_arg6 (c : Dev nD) : W1 m ρ c (Proc.devRef .tc main_arg6) = m ((c : Thread nD τ).loc main_arg6) :=
  W1_of_ne m ρ c main_arg6 (by decide)

/-! At region 1's entry: the stretch between the regions writes intermediates only. -/
theorem entry3_arg2 (c : Dev nD) : W3 m ρ c (Proc.devRef .tc main_arg2) = m ((c : Thread nD τ).loc main_arg2) := by
  dsimp only [W3, W2]
  after_results_simp
  exact entry1_arg2 m ρ c
theorem entry3_arg3 (c : Dev nD) : W3 m ρ c (Proc.devRef .tc main_arg3) = m ((c : Thread nD τ).loc main_arg3) := by
  dsimp only [W3, W2]
  after_results_simp
  exact entry1_arg3 m ρ c
theorem entry3_arg4 (c : Dev nD) : W3 m ρ c (Proc.devRef .tc main_arg4) = m ((c : Thread nD τ).loc main_arg4) := by
  dsimp only [W3, W2]
  after_results_simp
  exact entry1_arg4 m ρ c
theorem entry3_arg5 (c : Dev nD) : W3 m ρ c (Proc.devRef .tc main_arg5) = m ((c : Thread nD τ).loc main_arg5) := by
  dsimp only [W3, W2]
  after_results_simp
  exact entry1_arg5 m ρ c
theorem entry3_arg6 (c : Dev nD) : W3 m ρ c (Proc.devRef .tc main_arg6) = m ((c : Thread nD τ).loc main_arg6) := by
  dsimp only [W3, W2]
  after_results_simp
  exact entry1_arg6 m ρ c

/-! After region 1 (its three arrays are the hidden features, the second weight matrix and its own output). -/
theorem entry4_arg3 (c : Dev nD) : W4 m ρ c (Proc.devRef .tc main_arg3) = m ((c : Thread nD τ).loc main_arg3) :=
  (W4_of_ne m ρ c main_arg3 (by decide)).trans (entry3_arg3 m ρ c)
theorem entry4_arg4 (c : Dev nD) : W4 m ρ c (Proc.devRef .tc main_arg4) = m ((c : Thread nD τ).loc main_arg4) :=
  (W4_of_ne m ρ c main_arg4 (by decide)).trans (entry3_arg4 m ρ c)
theorem entry4_arg5 (c : Dev nD) : W4 m ρ c (Proc.devRef .tc main_arg5) = m ((c : Thread nD τ).loc main_arg5) :=
  (W4_of_ne m ρ c main_arg5 (by decide)).trans (entry3_arg5 m ρ c)
theorem entry4_arg6 (c : Dev nD) : W4 m ρ c (Proc.devRef .tc main_arg6) = m ((c : Thread nD τ).loc main_arg6) :=
  (W4_of_ne m ρ c main_arg6 (by decide)).trans (entry3_arg6 m ρ c)

/-! ## The two stretches -/

set_option maxHeartbeats 2000000 in
/-- At region 1's entry the hidden features are the specification's `hidden` of what region 0 left in its output. -/
theorem hidden_read (c : Dev nD) : W3 m ρ c (Proc.devRef .tc main_v14)
    = Cert.Graph.hidden (W1 m ρ c (Proc.devRef .tc main_v0)) (m ((c : Thread nD τ).loc main_arg3)) (m ((c : Thread nD τ).loc main_arg4)) (m ((c : Thread nD τ).loc main_arg5)) := by
  dsimp only [W3, W2]
  after_results_simp
  rw [entry1_arg3 m ρ c, entry1_arg4 m ρ c, entry1_arg5 m ρ c]
  rfl

set_option maxHeartbeats 2000000 in
/-- At the return the result buffer is the specification's `readout` of what region 1 left in its output. -/
theorem readout_read (c : Dev nD) : W5 m ρ c (Proc.devRef .tc main_v35)
    = Cert.Graph.readout (W4 m ρ c (Proc.devRef .tc main_v15)) (m ((c : Thread nD τ).loc main_arg3)) (m ((c : Thread nD τ).loc main_arg4)) (m ((c : Thread nD τ).loc main_arg5)) (m ((c : Thread nD τ).loc main_arg6)) := by
  dsimp only [W5]
  after_results_simp
  rw [entry4_arg3 m ρ c, entry4_arg4 m ρ c, entry4_arg5 m ρ c, entry4_arg6 m ρ c]
  rfl

end Cert.KernelIdeal.HostStretches

end
-- ==== Proof.RowBlocks0.lean ====
/-
  REGION 0, read as a value at the exact extended reals: after its 25 grid points the output array holds the dense
  product of the WHOLE arrays the region found in its two input windows.

  Point `t` multiplies rows 2000·t … 2000·t + 1999 of the left array (its block) by the whole right array, into a
  zero accumulator; the change of float format in front of the product (and a cast of a block to its own shape, where
  the body has one) is the identity here. So entry (p, q) of the
  block is  Σₖ left(2000·t + p, k) · right(k, q),  which is entry (2000·t + p, q) of the whole product: the very
  sum, term by term — no law of arithmetic is used, only where each factor is read. The 25 row blocks tile the
  50000 rows, so every entry of the array is written once, by the point  row / 2000.
-/
import proofs.«122880_j51694226375203_1_alg».proof.Proof.Gen.KernelIdeal.Frame
import proofs.«122880_j51694226375203_1_alg».proof.Proof.Gen.ReferenceIdeal.Read
import proofs.«122880_j51694226375203_1_alg».proof.Proof.Graph
import Idealize.ShloMosaic.Lib.Pipeline.Value
import Idealize.ShloMosaic.Lib.ValueIdx
import Idealize.ShloMosaic.PureOps.Ideal.Laws

set_option maxRecDepth 16384

noncomputable section

namespace Cert.KernelIdeal.RowBlocks0

open Cert.KernelIdeal Cert.KernelIdeal.Gen
open Idealize.ShloMosaic Idealize.ShloMosaic.TcCoe Idealize.SL.Sem
open Idealize.ShloMosaic.Pipeline (Dat Cfg Window)

/-! ## One block's product at an entry -/

theorem lhs_axis0 (i : S2000x128.Idx) (q : dot_S2000x512_S512x128_S2000x128_1_0_0_1_n_n.contr.Idx) :
    (dot_S2000x512_S512x128_S2000x128_1_0_0_1_n_n.lhsIdx i q 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem lhs_axis1 (i : S2000x128.Idx) (q : dot_S2000x512_S512x128_S2000x128_1_0_0_1_n_n.contr.Idx) :
    (dot_S2000x512_S512x128_S2000x128_1_0_0_1_n_n.lhsIdx i q 1).val = (q ⟨0, by decide⟩).val :=
  dot_S2000x512_S512x128_S2000x128_1_0_0_1_n_n.lhsIdx_val_of_single rfl i q
theorem rhs_axis0 (i : S2000x128.Idx) (q : dot_S2000x512_S512x128_S2000x128_1_0_0_1_n_n.contr.Idx) :
    (dot_S2000x512_S512x128_S2000x128_1_0_0_1_n_n.rhsIdx i q 0).val = (q ⟨0, by decide⟩).val :=
  dot_S2000x512_S512x128_S2000x128_1_0_0_1_n_n.rhsIdx_val_of_single rfl i q
theorem rhs_axis1 (i : S2000x128.Idx) (q : dot_S2000x512_S512x128_S2000x128_1_0_0_1_n_n.contr.Idx) :
    (dot_S2000x512_S512x128_S2000x128_1_0_0_1_n_n.rhsIdx i q 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- Row `y 0` of the left block, at column `k`. -/
abbrev leftAt (y : S2000x128.Idx) (k : Fin 512) : S2000x512.Idx := fun a => match a with
  | ⟨0, _⟩ => ⟨(y 0).val, (y 0).isLt⟩
  | ⟨1, _⟩ => ⟨k.val, k.isLt⟩
/-- Column `y 1` of the right array, at row `k`. -/
abbrev rightAt (y : S2000x128.Idx) (k : Fin 512) : S512x128.Idx := fun a => match a with
  | ⟨0, _⟩ => ⟨k.val, k.isLt⟩
  | ⟨1, _⟩ => ⟨(y 1).val, (y 1).isLt⟩

/-- What the body stores, at an entry: the sum over the 512 shared coordinates of left-row times right-column. -/
theorem stored_apply (xb : FVec Ideal S2000x512 .f32) (wb : FVec Ideal S512x128 .f32) (y : S2000x128.Idx) :
    k0_pay1 (F := Ideal) xb wb y = ∑ k : Fin 512, xb (leftAt y k) * wb (rightAt y k) := by
  unfold k0_pay1
  refine (Ideal.matmul_constant_zero_apply dot_S2000x512_S512x128_S2000x128_1_0_0_1_n_n none _ _ y).trans ?_
  rw [← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx y ((ValueIdx.contrEquiv1 dot_S2000x512_S512x128_S2000x128_1_0_0_1_n_n 512 rfl rfl).symm k) = leftAt y k := funext fun a => Fin.ext (by
    match a with
    | ⟨0, _⟩ => exact lhs_axis0 _ _
    | ⟨1, _⟩ => exact (lhs_axis1 _ _).trans hk)
  have er : dot_S2000x512_S512x128_S2000x128_1_0_0_1_n_n.rhsIdx y ((ValueIdx.contrEquiv1 dot_S2000x512_S512x128_S2000x128_1_0_0_1_n_n 512 rfl rfl).symm k) = rightAt y k := funext fun a => Fin.ext (by
    match a with
    | ⟨0, _⟩ => exact (rhs_axis0 _ _).trans hk
    | ⟨1, _⟩ => exact rhs_axis1 _ _)
  rw [el, er]
  simp only [truncf, Ideal.truncf_def, shapeCast_self]

/-- The dense product of the whole arrays, at an entry: the sum over the 512 shared coordinates of row times column. -/
theorem dense_apply (X : (⟨S50000x512, .f32⟩ : BufTy).Contents (Elt Ideal)) (W : (⟨S512x128, .f32⟩ : BufTy).Contents (Elt Ideal))
    (i : S50000x128.Idx) :
    Cert.Graph.dense0 (F := Ideal) X W i
      = ∑ k : Fin 512, X (Cert.ReferenceIdeal.Read.lidx_main_v0 i k) * W (Cert.ReferenceIdeal.Read.ridx_main_v0 i k) := by
  unfold Cert.Graph.dense0
  simp only [Host.dotGeneral]
  rw [Ideal.dotGeneral_apply, ← Equiv.sum_comp (ValueIdx.contrEquiv1 Cert.ReferenceIdeal.dot_S50000x512_S512x128_S50000x128_1_0_0_1_n_n 512 rfl rfl).symm]
  refine Finset.sum_congr rfl fun k _ => ?_
  have hk := ValueIdx.contrEquiv1_symm_val Cert.ReferenceIdeal.dot_S50000x512_S512x128_S50000x128_1_0_0_1_n_n 512 rfl rfl k
  have el : Cert.ReferenceIdeal.dot_S50000x512_S512x128_S50000x128_1_0_0_1_n_n.lhsIdx i ((ValueIdx.contrEquiv1 Cert.ReferenceIdeal.dot_S50000x512_S512x128_S50000x128_1_0_0_1_n_n 512 rfl rfl).symm k) = Cert.ReferenceIdeal.Read.lidx_main_v0 i k := funext fun a => Fin.ext (by
    match a with
    | ⟨0, _⟩ => exact Cert.ReferenceIdeal.Read.lhs_main_v0_0 _ _
    | ⟨1, _⟩ => exact (Cert.ReferenceIdeal.Read.lhs_main_v0_1 _ _).trans hk)
  have er : Cert.ReferenceIdeal.dot_S50000x512_S512x128_S50000x128_1_0_0_1_n_n.rhsIdx i ((ValueIdx.contrEquiv1 Cert.ReferenceIdeal.dot_S50000x512_S512x128_S50000x128_1_0_0_1_n_n 512 rfl rfl).symm k) = Cert.ReferenceIdeal.Read.ridx_main_v0 i k := funext fun a => Fin.ext (by
    match a with
    | ⟨0, _⟩ => exact (Cert.ReferenceIdeal.Read.rhs_main_v0_0 _ _).trans hk
    | ⟨1, _⟩ => exact Cert.ReferenceIdeal.Read.rhs_main_v0_1 _ _)
  rw [el, er]

/-- A block whose left factor is a band of rows of `X` and whose right factor is `W` stores, at entry `y`, entry `i` of
    the dense product of `X` and `W` — the two sums have the same terms. -/
theorem stored_eq_dense (X : (⟨S50000x512, .f32⟩ : BufTy).Contents (Elt Ideal)) (W : (⟨S512x128, .f32⟩ : BufTy).Contents (Elt Ideal))
    (xb : FVec Ideal S2000x512 .f32) (wb : FVec Ideal S512x128 .f32) (y : S2000x128.Idx) (i : S50000x128.Idx)
    (hx : ∀ k : Fin 512, xb (leftAt y k) = X (Cert.ReferenceIdeal.Read.lidx_main_v0 i k))
    (hw : ∀ k : Fin 512, wb (rightAt y k) = W (Cert.ReferenceIdeal.Read.ridx_main_v0 i k)) :
    k0_pay1 (F := Ideal) xb wb y = Cert.Graph.dense0 (F := Ideal) X W i := by
  rw [stored_apply]
  refine Eq.trans ?_ (dense_apply X W i).symm
  exact Finset.sum_congr rfl fun k _ => by rw [hx k, hw k]

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the output's block is row block `t`, the left input's moves with it, the right
    input's is always the whole array. -/
theorem index_facts : ∀ t : Fin cfg0.N,
      win0_0.index t (0 : Fin 2) = win0_2.index t (0 : Fin 2) ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the dense product of the arrays the region found. -/
theorem flushed_eq (c : Dev nD) (t : Fin cfg0.N) :
    (dat0 V c).flushed 2 t
      = ((cfg0.win 2).blk t).view.read (Elt Ideal) (Cert.Graph.dense0 (F := Ideal) (V c main_arg0) (V c main_arg1)) := by
  show (cfg0.win 2).cut (grid0.coords t) ((dat0 V c).after 2 t) = _
  rw [after0_2]
  unfold out0_2
  rw [View.canon_unit_zero zeroOffsets]
  simp only [View.ld_unit_zero (S := S2000x512) zeroOffsets, View.ld_unit_zero (S := S512x128) zeroOffsets]
  obtain ⟨e0, e1, e2, e3, e4, e5⟩ := index_facts t
  funext j
  show k0_pay1 (F := Ideal) (iblk0 V c 0 t) (iblk0 V c 1 t) j
    = Cert.Graph.dense0 (F := Ideal) (V c main_arg0) (V c main_arg1) (((cfg0.win 2).blk t).view.emb j)
  refine stored_eq_dense (V c main_arg0) (V c main_arg1) (iblk0 V c 0 t) (iblk0 V c 1 t) j
    (((cfg0.win 2).blk t).view.emb j) (fun k => ?_) (fun k => ?_)
  · show V c main_arg0 (((cfg0.win 0).blk t).view.emb (leftAt j k))
      = V c main_arg0 (Cert.ReferenceIdeal.Read.lidx_main_v0 (((cfg0.win 2).blk t).view.emb j) k)
    refine congrArg (V c main_arg0) (funext fun a => Fin.ext ?_)
    match a with
    | ⟨0, _⟩ =>
      show win0_0.index t (0 : Fin 2) * 2000 + 1 * (j 0).val = win0_2.index t (0 : Fin 2) * 2000 + 1 * (j 0).val
      omega
    | ⟨1, _⟩ =>
      show win0_0.index t (1 : Fin 2) * 512 + 1 * k.val = k.val
      omega
  · show V c main_arg1 (((cfg0.win 1).blk t).view.emb (rightAt j k))
      = V c main_arg1 (Cert.ReferenceIdeal.Read.ridx_main_v0 (((cfg0.win 2).blk t).view.emb j) k)
    refine congrArg (V c main_arg1) (funext fun a => Fin.ext ?_)
    match a with
    | ⟨0, _⟩ =>
      show win0_1.index t (0 : Fin 2) * 512 + 1 * k.val = k.val
      omega
    | ⟨1, _⟩ =>
      show win0_1.index t (1 : Fin 2) * 128 + 1 * (j 1).val = win0_2.index t (1 : Fin 2) * 128 + 1 * (j 1).val
      omega

/-- An entry of the array is in point `t`'s block iff each coordinate is in the block's range on its axis. -/
theorem mem_block (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

/-- Every entry of the array is in the block of the point  row / 2000. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : (i 0).val / 2000 < cfg0.N := by
    show _ < grid0.N
    rw [N_0]
    omega
  obtain ⟨-, -, -, -, e4, e5⟩ := index_facts ⟨(i 0).val / 2000, hN⟩
  have e4' : win0_2.index ⟨(i 0).val / 2000, hN⟩ (0 : Fin 2) = (i 0).val / 2000 := e4
  refine ⟨⟨(i 0).val / 2000, hN⟩, flush0_2 _, ?_⟩
  rw [mem_block]
  intro a
  match a with
  | ⟨0, _⟩ =>
    show win0_2.index ⟨(i 0).val / 2000, hN⟩ (0 : Fin 2) * 2000 ≤ (i 0).val
      ∧ (i 0).val < win0_2.index ⟨(i 0).val / 2000, hN⟩ (0 : Fin 2) * 2000 + 2000
    omega
  | ⟨1, _⟩ =>
    show win0_2.index ⟨(i 0).val / 2000, hN⟩ (1 : Fin 2) * 128 ≤ (i 1).val
      ∧ (i 1).val < win0_2.index ⟨(i 0).val / 2000, hN⟩ (1 : Fin 2) * 128 + 128
    omega

/-- THE ARRAY region 0 leaves in its output window: the dense product of the whole arrays it found in its input windows. -/
theorem region_out (c : Dev nD) :
    (dat0 V c).arrAt 2 cfg0.N = Cert.Graph.dense0 (F := Ideal) (V c main_arg0) (V c main_arg1) :=
  (dat0 V c).arrAt_eq_of_cover 2 _ (fun t _ => flushed_eq V c t) covered

end Cert.KernelIdeal.RowBlocks0

end
-- ==== Proof.RowBlocks1.lean ====
/-
  REGION 1, read as a value at the exact extended reals: after its 5 grid points the output array holds the dense
  product of the WHOLE arrays the region found in its two input windows.

  Point `t` multiplies rows 10000·t … 10000·t + 9999 of the left array (its block) by the whole right array, into a
  zero accumulator; the change of float format in front of the product (and a cast of a block to its own shape, where
  the body has one) is the identity here. So entry (p, q) of the
  block is  Σₖ left(10000·t + p, k) · right(k, q),  which is entry (10000·t + p, q) of the whole product: the very
  sum, term by term — no law of arithmetic is used, only where each factor is read. The 5 row blocks tile the
  50000 rows, so every entry of the array is written once, by the point  row / 10000.
-/
import proofs.«122880_j51694226375203_1_alg».proof.Proof.Gen.KernelIdeal.Frame
import proofs.«122880_j51694226375203_1_alg».proof.Proof.Gen.ReferenceIdeal.Read
import proofs.«122880_j51694226375203_1_alg».proof.Proof.Graph
import Idealize.ShloMosaic.Lib.Pipeline.Value
import Idealize.ShloMosaic.Lib.ValueIdx
import Idealize.ShloMosaic.PureOps.Ideal.Laws

set_option maxRecDepth 16384

noncomputable section

namespace Cert.KernelIdeal.RowBlocks1

open Cert.KernelIdeal Cert.KernelIdeal.Gen
open Idealize.ShloMosaic Idealize.ShloMosaic.TcCoe Idealize.SL.Sem
open Idealize.ShloMosaic.Pipeline (Dat Cfg Window)

/-! ## One block's product at an entry -/

theorem lhs_axis0 (i : S10000x64.Idx) (q : dot_S10000x128_S128x64_S10000x64_1_0_0_1_n_n.contr.Idx) :
    (dot_S10000x128_S128x64_S10000x64_1_0_0_1_n_n.lhsIdx i q 0).val = (i 0).val := by
  unfold DotDims.lhsIdx
  rw [dif_neg (show ¬(0 : Fin S10000x128.rank) ∈ dot_S10000x128_S128x64_S10000x64_1_0_0_1_n_n.lhsBatch by decide), dif_pos (show (0 : Fin S10000x128.rank) ∈ dot_S10000x128_S128x64_S10000x64_1_0_0_1_n_n.lhsNonContracting by decide)]
  rfl
theorem lhs_axis1 (i : S10000x64.Idx) (q : dot_S10000x128_S128x64_S10000x64_1_0_0_1_n_n.contr.Idx) :
    (dot_S10000x128_S128x64_S10000x64_1_0_0_1_n_n.lhsIdx i q 1).val = (q ⟨0, by decide⟩).val :=
  dot_S10000x128_S128x64_S10000x64_1_0_0_1_n_n.lhsIdx_val_of_single rfl i q
theorem rhs_axis0 (i : S10000x64.Idx) (q : dot_S10000x128_S128x64_S10000x64_1_0_0_1_n_n.contr.Idx) :
    (dot_S10000x128_S128x64_S10000x64_1_0_0_1_n_n.rhsIdx i q 0).val = (q ⟨0, by decide⟩).val :=
  dot_S10000x128_S128x64_S10000x64_1_0_0_1_n_n.rhsIdx_val_of_single rfl i q
theorem rhs_axis1 (i : S10000x64.Idx) (q : dot_S10000x128_S128x64_S10000x64_1_0_0_1_n_n.contr.Idx) :
    (dot_S10000x128_S128x64_S10000x64_1_0_0_1_n_n.rhsIdx i q 1).val = (i 1).val := by
  unfold DotDims.rhsIdx
  rw [dif_neg (show ¬(1 : Fin S128x64.rank) ∈ dot_S10000x128_S128x64_S10000x64_1_0_0_1_n_n.rhsBatch by decide), dif_pos (show (1 : Fin S128x64.rank) ∈ dot_S10000x128_S128x64_S10000x64_1_0_0_1_n_n.rhsNonContracting by decide)]
  rfl

/-- Row `y 0` of the left block, at column `k`. -/
abbrev leftAt (y : S10000x64.Idx) (k : Fin 128) : S10000x128.Idx := fun a => match a with
  | ⟨0, _⟩ => ⟨(y 0).val, (y 0).isLt⟩
  | ⟨1, _⟩ => ⟨k.val, k.isLt⟩
/-- Column `y 1` of the right array, at row `k`. -/
abbrev rightAt (y : S10000x64.Idx) (k : Fin 128) : S128x64.Idx := fun a => match a with
  | ⟨0, _⟩ => ⟨k.val, k.isLt⟩
  | ⟨1, _⟩ => ⟨(y 1).val, (y 1).isLt⟩

/-- What the body stores, at an entry: the sum over the 128 shared coordinates of left-row times right-column. -/
theorem stored_apply (xb : FVec Ideal S10000x128 .f32) (wb : FVec Ideal S128x64 .f32) (y : S10000x64.Idx) :
    k1_pay1 (F := Ideal) xb wb y = ∑ k : Fin 128, xb (leftAt y k) * wb (rightAt y k) := by
  unfold k1_pay1
  refine (Ideal.matmul_constant_zero_apply dot_S10000x128_S128x64_S10000x64_1_0_0_1_n_n none _ _ y).trans ?_
  rw [← Equiv.sum_comp (ValueIdx.contrEquiv1 dot_S10000x128_S128x64_S10000x64_1_0_0_1_n_n 128 rfl rfl).symm]
  refine Finset.sum_congr rfl fun k _ => ?_
  have hk := ValueIdx.contrEquiv1_symm_val dot_S10000x128_S128x64_S10000x64_1_0_0_1_n_n 128 rfl rfl k
  have el : dot_S10000x128_S128x64_S10000x64_1_0_0_1_n_n.lhsIdx y ((ValueIdx.contrEquiv1 dot_S10000x128_S128x64_S10000x64_1_0_0_1_n_n 128 rfl rfl).symm k) = leftAt y k := funext fun a => Fin.ext (by
    match a with
    | ⟨0, _⟩ => exact lhs_axis0 _ _
    | ⟨1, _⟩ => exact (lhs_axis1 _ _).trans hk)
  have er : dot_S10000x128_S128x64_S10000x64_1_0_0_1_n_n.rhsIdx y ((ValueIdx.contrEquiv1 dot_S10000x128_S128x64_S10000x64_1_0_0_1_n_n 128 rfl rfl).symm k) = rightAt y k := funext fun a => Fin.ext (by
    match a with
    | ⟨0, _⟩ => exact (rhs_axis0 _ _).trans hk
    | ⟨1, _⟩ => exact rhs_axis1 _ _)
  rw [el, er]
  simp only [truncf, Ideal.truncf_def, shapeCast_self]

/-- The dense product of the whole arrays, at an entry: the sum over the 128 shared coordinates of row times column. -/
theorem dense_apply (X : (⟨S50000x128, .f32⟩ : BufTy).Contents (Elt Ideal)) (W : (⟨S128x64, .f32⟩ : BufTy).Contents (Elt Ideal))
    (i : S50000x64.Idx) :
    Cert.Graph.dense1 (F := Ideal) X W i
      = ∑ k : Fin 128, X (Cert.ReferenceIdeal.Read.lidx_main_v15 i k) * W (Cert.ReferenceIdeal.Read.ridx_main_v15 i k) := by
  unfold Cert.Graph.dense1
  simp only [Host.dotGeneral]
  rw [Ideal.dotGeneral_apply, ← Equiv.sum_comp (ValueIdx.contrEquiv1 Cert.ReferenceIdeal.dot_S50000x128_S128x64_S50000x64_1_0_0_1_n_n 128 rfl rfl).symm]
  refine Finset.sum_congr rfl fun k _ => ?_
  have hk := ValueIdx.contrEquiv1_symm_val Cert.ReferenceIdeal.dot_S50000x128_S128x64_S50000x64_1_0_0_1_n_n 128 rfl rfl k
  have el : Cert.ReferenceIdeal.dot_S50000x128_S128x64_S50000x64_1_0_0_1_n_n.lhsIdx i ((ValueIdx.contrEquiv1 Cert.ReferenceIdeal.dot_S50000x128_S128x64_S50000x64_1_0_0_1_n_n 128 rfl rfl).symm k) = Cert.ReferenceIdeal.Read.lidx_main_v15 i k := funext fun a => Fin.ext (by
    match a with
    | ⟨0, _⟩ => exact Cert.ReferenceIdeal.Read.lhs_main_v15_0 _ _
    | ⟨1, _⟩ => exact (Cert.ReferenceIdeal.Read.lhs_main_v15_1 _ _).trans hk)
  have er : Cert.ReferenceIdeal.dot_S50000x128_S128x64_S50000x64_1_0_0_1_n_n.rhsIdx i ((ValueIdx.contrEquiv1 Cert.ReferenceIdeal.dot_S50000x128_S128x64_S50000x64_1_0_0_1_n_n 128 rfl rfl).symm k) = Cert.ReferenceIdeal.Read.ridx_main_v15 i k := funext fun a => Fin.ext (by
    match a with
    | ⟨0, _⟩ => exact (Cert.ReferenceIdeal.Read.rhs_main_v15_0 _ _).trans hk
    | ⟨1, _⟩ => exact Cert.ReferenceIdeal.Read.rhs_main_v15_1 _ _)
  rw [el, er]

/-- A block whose left factor is a band of rows of `X` and whose right factor is `W` stores, at entry `y`, entry `i` of
    the dense product of `X` and `W` — the two sums have the same terms. -/
theorem stored_eq_dense (X : (⟨S50000x128, .f32⟩ : BufTy).Contents (Elt Ideal)) (W : (⟨S128x64, .f32⟩ : BufTy).Contents (Elt Ideal))
    (xb : FVec Ideal S10000x128 .f32) (wb : FVec Ideal S128x64 .f32) (y : S10000x64.Idx) (i : S50000x64.Idx)
    (hx : ∀ k : Fin 128, xb (leftAt y k) = X (Cert.ReferenceIdeal.Read.lidx_main_v15 i k))
    (hw : ∀ k : Fin 128, wb (rightAt y k) = W (Cert.ReferenceIdeal.Read.ridx_main_v15 i k)) :
    k1_pay1 (F := Ideal) xb wb y = Cert.Graph.dense1 (F := Ideal) X W i := by
  rw [stored_apply]
  refine Eq.trans ?_ (dense_apply X W i).symm
  exact Finset.sum_congr rfl fun k _ => by rw [hx k, hw k]

/-! ## From the blocks to the array -/

variable (V : (c : Dev nD) → (b : Ref sig .tc) → Buf (Elt Ideal) ((c : Thread nD τ).loc b))

theorem zeroOffsets : (![0, 0] : Fin 2 → Nat) = fun _ => 0 := funext fun a => by fin_cases a <;> rfl

/-- The printed index maps over the grid: the output's block is row block `t`, the left input's moves with it, the right
    input's is always the whole array. -/
theorem index_facts : ∀ t : Fin cfg1.N,
      win1_0.index t (0 : Fin 2) = win1_2.index t (0 : Fin 2) ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the dense product of the arrays the region found. -/
theorem flushed_eq (c : Dev nD) (t : Fin cfg1.N) :
    (dat1 V c).flushed 2 t
      = ((cfg1.win 2).blk t).view.read (Elt Ideal) (Cert.Graph.dense1 (F := Ideal) (V c main_v14) (V c main_arg2)) := by
  show (cfg1.win 2).cut (grid1.coords t) ((dat1 V c).after 2 t) = _
  rw [after1_2]
  unfold out1_2
  rw [View.canon_unit_zero zeroOffsets]
  simp only [View.ld_unit_zero (S := S10000x128) zeroOffsets, View.ld_unit_zero (S := S128x64) zeroOffsets]
  obtain ⟨e0, e1, e2, e3, e4, e5⟩ := index_facts t
  funext j
  show k1_pay1 (F := Ideal) (iblk1 V c 0 t) (iblk1 V c 1 t) j
    = Cert.Graph.dense1 (F := Ideal) (V c main_v14) (V c main_arg2) (((cfg1.win 2).blk t).view.emb j)
  refine stored_eq_dense (V c main_v14) (V c main_arg2) (iblk1 V c 0 t) (iblk1 V c 1 t) j
    (((cfg1.win 2).blk t).view.emb j) (fun k => ?_) (fun k => ?_)
  · show V c main_v14 (((cfg1.win 0).blk t).view.emb (leftAt j k))
      = V c main_v14 (Cert.ReferenceIdeal.Read.lidx_main_v15 (((cfg1.win 2).blk t).view.emb j) k)
    refine congrArg (V c main_v14) (funext fun a => Fin.ext ?_)
    match a with
    | ⟨0, _⟩ =>
      show win1_0.index t (0 : Fin 2) * 10000 + 1 * (j 0).val = win1_2.index t (0 : Fin 2) * 10000 + 1 * (j 0).val
      omega
    | ⟨1, _⟩ =>
      show win1_0.index t (1 : Fin 2) * 128 + 1 * k.val = k.val
      omega
  · show V c main_arg2 (((cfg1.win 1).blk t).view.emb (rightAt j k))
      = V c main_arg2 (Cert.ReferenceIdeal.Read.ridx_main_v15 (((cfg1.win 2).blk t).view.emb j) k)
    refine congrArg (V c main_arg2) (funext fun a => Fin.ext ?_)
    match a with
    | ⟨0, _⟩ =>
      show win1_1.index t (0 : Fin 2) * 128 + 1 * k.val = k.val
      omega
    | ⟨1, _⟩ =>
      show win1_1.index t (1 : Fin 2) * 64 + 1 * (j 1).val = win1_2.index t (1 : Fin 2) * 64 + 1 * (j 1).val
      omega

/-- An entry of the array is in point `t`'s block iff each coordinate is in the block's range on its axis. -/
theorem mem_block (t : Fin cfg1.N) (i : S50000x64.Idx) :
    i ∈ ((cfg1.win 2).blk t).view.set ↔ ∀ a : Fin 2, win1_2.index t a * S10000x64.size a ≤ (i a).val
      ∧ (i a).val < win1_2.index t a * S10000x64.size a + S10000x64.size a := by
  show i ∈ ((View.whole main_v15).slice (win1_2.rect t)).set ↔ _
  rw [View.set_slice_whole, Rect.mem_set_unit]
  exact Iff.rfl

/-- Every entry of the array is in the block of the point  row / 10000. -/
theorem covered (i : S50000x64.Idx) :
    ∃ t : Fin cfg1.N, (cfg1.win 2).flush t = true ∧ i ∈ ((cfg1.win 2).blk t).view.set := by
  have hi0 : (i 0).val < 50000 := (i 0).isLt
  have hi1 : (i 1).val < 64 := (i 1).isLt
  have hN : (i 0).val / 10000 < cfg1.N := by
    show _ < grid1.N
    rw [N_1]
    omega
  obtain ⟨-, -, -, -, e4, e5⟩ := index_facts ⟨(i 0).val / 10000, hN⟩
  have e4' : win1_2.index ⟨(i 0).val / 10000, hN⟩ (0 : Fin 2) = (i 0).val / 10000 := e4
  refine ⟨⟨(i 0).val / 10000, hN⟩, flush1_2 _, ?_⟩
  rw [mem_block]
  intro a
  match a with
  | ⟨0, _⟩ =>
    show win1_2.index ⟨(i 0).val / 10000, hN⟩ (0 : Fin 2) * 10000 ≤ (i 0).val
      ∧ (i 0).val < win1_2.index ⟨(i 0).val / 10000, hN⟩ (0 : Fin 2) * 10000 + 10000
    omega
  | ⟨1, _⟩ =>
    show win1_2.index ⟨(i 0).val / 10000, hN⟩ (1 : Fin 2) * 64 ≤ (i 1).val
      ∧ (i 1).val < win1_2.index ⟨(i 0).val / 10000, hN⟩ (1 : Fin 2) * 64 + 64
    omega

/-- THE ARRAY region 1 leaves in its output window: the dense product of the whole arrays it found in its input windows. -/
theorem region_out (c : Dev nD) :
    (dat1 V c).arrAt 2 cfg1.N = Cert.Graph.dense1 (F := Ideal) (V c main_v14) (V c main_arg2) :=
  (dat1 V c).arrAt_eq_of_cover 2 _ (fun t _ => flushed_eq V c t) covered

end Cert.KernelIdeal.RowBlocks1

end
-- ==== Proof.Forward.lean ====
/-
  The result buffer of the kernel's program as the specification's forward pass of the launched arrays, at the exact
  extended reals.

  Reading the run's last boundary backwards: the result is the `readout` of what region 1 left; region 1 left the dense
  product of what it found, the hidden features and the second weight matrix; the hidden features are the `hidden` of what
  region 0 left; and region 0 left the dense product of the launched input features and first weight matrix.
-/
import proofs.«122880_j51694226375203_1_alg».proof.Proof.Gen.KernelIdeal.Frame
import proofs.«122880_j51694226375203_1_alg».proof.Proof.Graph
import proofs.«122880_j51694226375203_1_alg».proof.Proof.HostStretches
import proofs.«122880_j51694226375203_1_alg».proof.Proof.RowBlocks0
import proofs.«122880_j51694226375203_1_alg».proof.Proof.RowBlocks1

set_option maxRecDepth 16384

noncomputable section

namespace Cert.KernelIdeal.Forward

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- After region 0 its output array is the dense product of the launched input features and first weight matrix. -/
theorem first_product (c : Dev nD) : W1 m ρ c (Proc.devRef .tc main_v0)
    = Cert.Graph.dense0 (F := Ideal) (m ((c : Thread nD τ).loc main_arg0)) (m ((c : Thread nD τ).loc main_arg1)) :=
  (W1_arr m ρ c 2).trans (RowBlocks0.region_out (V0 m ρ) c)

/-- After region 1 its output array is the dense product of the hidden features and the second weight matrix. -/
theorem second_product (c : Dev nD) : W4 m ρ c (Proc.devRef .tc main_v15)
    = Cert.Graph.dense1 (F := Ideal)
        (Cert.Graph.hidden (F := Ideal) (Cert.Graph.dense0 (F := Ideal) (m ((c : Thread nD τ).loc main_arg0)) (m ((c : Thread nD τ).loc main_arg1))) (m ((c : Thread nD τ).loc main_arg3)) (m ((c : Thread nD τ).loc main_arg4)) (m ((c : Thread nD τ).loc main_arg5)))
        (m ((c : Thread nD τ).loc main_arg2)) := by
  refine (W4_arr m ρ c 2).trans ((RowBlocks1.region_out (V3 m ρ) c).trans ?_)
  show Cert.Graph.dense1 (F := Ideal) (W3 m ρ c (Proc.devRef .tc main_v14)) (W3 m ρ c (Proc.devRef .tc main_arg2)) = _
  rw [HostStretches.hidden_read m ρ c, HostStretches.entry3_arg2 m ρ c, first_product m ρ c]

/-- THE RESULT: at the return the result buffer holds the forward pass of the launched arrays. -/
theorem result_value (c : Dev nD) : W5 m ρ c (Proc.devRef .tc main_v35)
    = Cert.Graph.forward (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [HostStretches.readout_read m ρ c, second_product m ρ c]
  rfl

end Cert.KernelIdeal.Forward

end
-- ==== Proof.lean ====
/-
  A two-layer graph convolution,  out = rows idx of  A · ( relu (A · (x W0)) · W1 ),  where  A ·  is the sparse product
  over 800000 weighted edges (gather rows by source, scale by the edge weight, add into rows by destination).

  The kernel's program computes the two dense products  x W0  and  h W1  in two row-tiled regions — 25 blocks of 2000 rows
  and 5 blocks of 10000 rows, each block one product of a band of rows with the whole weight matrix into a zero
  accumulator, behind a change of float format — and does everything else with the same host operations as the reference,
  which takes the two products in one piece each.

  At the exact extended reals the change of format is the identity and a block's entry is the very sum of the whole
  product's entry, term by term; the blocks tile the rows. So each region leaves the whole dense product (RowBlocks0,
  RowBlocks1), the host stretches around them are the specification's `hidden` and `readout` (HostStretches), and
  the result buffer is the specification's `forward` of the launched arrays (Forward). The reference's run ends at the
  same composition of the same operations, so the two results are one function of arguments that agree. No law of
  arithmetic is used and the inputs' finiteness is never opened.

  The frames are the generated ones (the reference's is its run with the result dropped); the idealization rewrote
  nothing, so it is sanctioned trivially.
-/
import proofs.«122880_j51694226375203_1_alg».proof.Defs
import proofs.«122880_j51694226375203_1_alg».proof.Proof.Gen.Kernel
import proofs.«122880_j51694226375203_1_alg».proof.Proof.Gen.Kernel.Frame
import proofs.«122880_j51694226375203_1_alg».proof.Proof.Gen.KernelIdeal
import proofs.«122880_j51694226375203_1_alg».proof.Proof.Gen.KernelIdeal.Frame
import proofs.«122880_j51694226375203_1_alg».proof.Proof.Gen.ReferenceIdeal
import proofs.«122880_j51694226375203_1_alg».proof.Proof.Gen.ReferenceIdeal.Run
import proofs.«122880_j51694226375203_1_alg».proof.Proof.Gen.ReferenceIdeal.Read
import proofs.«122880_j51694226375203_1_alg».proof.Proof.Gen.Pre_finite_inputs
import proofs.«122880_j51694226375203_1_alg».proof.Proof.Graph
import proofs.«122880_j51694226375203_1_alg».proof.Proof.KernelRun
import proofs.«122880_j51694226375203_1_alg».proof.Proof.Forward
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the seven arguments both programs end with the forward pass of those arguments in the
    result buffer: the kernel's by the value read off its run, the reference's because its run's term is that
    composition of the same operations. -/
theorem algebraic : Cert.algebraic_KernelIdeal_ReferenceIdeal := by
  intro m ρ m' ρ' _ hagree
  refine ⟨fun c => Cert.Graph.forward (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.Forward.result_value m ρ c), (h c).2⟩)
      (Cert.KernelIdeal.Run.result_at_last_boundary m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6⟩ := hagree c
    rw [h0, h1, h2, h3, h4, h5, h6]
    rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
